-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S16x10 .f32) (main_arg9 : FVec F S10 .f32) (main_v33 : IVec S_ 1) : IVec S_ 1 :=
  let main_v34 : FVec F S16x10 .f32 := Host.absf main_arg8
  let main_cst_12 : FVec F S_ .f32 := constant S_ .f32 0x7F800000#32
  let main_v35 : FVec F S16x10 .f32 := broadcastInDim S16x10 ![] bcast_S_S16x10 main_cst_12
  let main_v36 : IVec S16x10 1 := cmpf .olt main_v34 main_v35
  let main_c_13 : IVec S_ 1 := constantI S_ 1 1#1
  let main_v37 : IVec S_ 1 := (fun x v => Host.reduce IntOp.andi x v reducesTo_S16x10_S_d0_1 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x10 .f32) (main_arg9 : FVec F S10 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x3200000 32) (main_arg2 : FVec F S256x64 .f32) (main_arg3 : FVec F S64 .f32) (main_arg4 : FVec F S64x32 .f32) (main_arg5 : FVec F S32 .f32) (main_arg6 : FVec F S32x16 .f32) (main_arg7 : FVec F S16 .f32) (main_arg8 : FVec F S16x10 .f32) (main_arg9 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S100000x64 : Shape := ⟨2, ![100000, 64]⟩
abbrev S5000x256 : Shape := ⟨2, ![5000, 256]⟩
abbrev S5000x64 : Shape := ⟨2, ![5000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S1x32 : Shape := ⟨2, ![1, 32]⟩
abbrev S1x16 : Shape := ⟨2, ![1, 16]⟩
abbrev S1x10 : Shape := ⟨2, ![1, 10]⟩
abbrev S100000x10 : Shape := ⟨2, ![100000, 10]⟩
abbrev S5000x10 : Shape := ⟨2, ![5000, 10]⟩
abbrev S5000x32 : Shape := ⟨2, ![5000, 32]⟩
abbrev S5000x16 : Shape := ⟨2, ![5000, 16]⟩

abbrev nBuf : Space → Nat
  | .hbm => 72
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x10, .f32⟩
  | .hbm, ⟨9, _⟩ => ⟨S10, .f32⟩
  | .hbm, ⟨10, _⟩ => ⟨S100000x64, .f32⟩
  | .hbm, ⟨11, _⟩ => ⟨S100000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S1x32, .f32⟩
  | .hbm, ⟨69, _⟩ => ⟨S1x16, .f32⟩
  | .hbm, ⟨70, _⟩ => ⟨S1x10, .f32⟩
  | .hbm, ⟨71, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S32x16, .f32⟩
  | .local _ .vmem, ⟨11, _⟩ => ⟨S1x16, .f32⟩
  | .local _ .vmem, ⟨12, _⟩ => ⟨S16x10, .f32⟩
  | .local _ .vmem, ⟨13, _⟩ => ⟨S1x10, .f32⟩
  | .local _ .vmem, ⟨14, _⟩ => ⟨S5000x10, .f32⟩
  | .local _ .vmem, ⟨15, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem8_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x10 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S32_S1x32 : S32.ShapeCasts S1x32
  shapeCasts_S16_S1x16 : S16.ShapeCasts S1x16
  shapeCasts_S10_S1x10 : S10.ShapeCasts S1x10
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  dot_S5000x256_S256x64_S5000x64_1_0_0_1_n_n_wf : DotDims.WF S5000x256 S256x64 S5000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  dot_S5000x32_S32x16_S5000x16_1_0_0_1_n_n_wf : DotDims.WF S5000x32 S32x16 S5000x16 [1] [0] [0] [1] [] []
  dot_S5000x16_S16x10_S5000x10_1_0_0_1_n_n_wf : DotDims.WF S5000x16 S16x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x10.size a ≤ S16x10.size a
  hwx1_6 : ∀ i : grid1.Coords, EltTy.bits .f32 = 32 ∨ (Rect.block (s := S16x10) S16x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x10.size a ≤ S100000x10.size a
  hwx1_8 : ∀ i : grid1.Coords, EltTy.bits .f32 = 32 ∨ (Rect.block (s := S100000x10) S5000x10.size (cc1_transform_8 i) (hinb1_8 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S16x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v48) S5000x10.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S100000x10 : Shape := ⟨2, ![100000, 10]⟩
abbrev S1x10 : Shape := ⟨2, ![1, 10]⟩

abbrev nBuf : Space → Nat
  | .hbm => 91
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x10, .f32⟩
  | .hbm, ⟨9, _⟩ => ⟨S10, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S100000x64, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x64, .f32⟩
  | .hbm, ⟨60, _⟩ => ⟨S3300000x1, .f32⟩
  | .hbm, ⟨61, _⟩ => ⟨S3300000x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .hbm, ⟨77, _⟩ => ⟨S_, .f32⟩
  | .hbm, ⟨78, _⟩ => ⟨S100000x32, .f32⟩
  | .hbm, ⟨79, _⟩ => ⟨S100000x32, .f32⟩
  | .hbm, ⟨80, _⟩ => ⟨S100000x16, .f32⟩
  | .hbm, ⟨81, _⟩ => ⟨S1x16, .f32⟩
  | .hbm, ⟨82, _⟩ => ⟨S100000x16, .f32⟩
  | .hbm, ⟨83, _⟩ => ⟨S100000x16, .f32⟩
  | .hbm, ⟨84, _⟩ => ⟨S_, .f32⟩
  | .hbm, ⟨85, _⟩ => ⟨S100000x16, .f32⟩
  | .hbm, ⟨86, _⟩ => ⟨S100000x16, .f32⟩
  | .hbm, ⟨87, _⟩ => ⟨S100000x10, .f32⟩
  | .hbm, ⟨88, _⟩ => ⟨S1x10, .f32⟩
  | .hbm, ⟨89, _⟩ => ⟨S100000x10, .f32⟩
  | .hbm, ⟨90, _⟩ => ⟨S100000x10, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call3_cst : Ref sig .tc := ⟨.hbm, 84, rfl⟩
abbrev main_call3_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  dot_S100000x16_S16x10_S100000x10_1_0_0_1_n_n_wf : DotDims.WF S100000x16 S16x10 S100000x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf

class Facts : Prop extends Facts₀ where

variable [Facts]
-- ==== Proof.Spec.lean ====
/-
  The network both programs compute, written once over the extended reals.

  A dense layer takes a row `a` of `K` numbers to `N` numbers: output column `j` is the dot product of `a` with
  column `j` of the weight matrix, plus bias `j`.  `relu x = max x 0`.  One node's output row is three dense layers with a
  `relu` before each of them: the first `relu` is applied to the aggregated feature row plus the convolution's bias.
  Whole arrays: `xw` is the product of the node features with the convolution's weights, row by row, and `net` applies the
  row function to every row of the aggregated features.  Nothing here depends on how either program tiles its rows.
-/
import Idealize.ShloMosaic.PureOps.Ideal
import Idealize.ShloMosaic.Lib.ValueIdx

noncomputable section

open scoped BigOperators

namespace Cert.Net

open Idealize.ShloMosaic Idealize.ShloMosaic.ValueIdx

/-- The float word `0x00000000` as both programs' `relu` reads it (never evaluated: the same word on both sides). -/
abbrev zeroWord : EReal := Ideal.ofBits .f32 0x00000000#32

/-- `relu x = max x 0`. -/
def relu (x : EReal) : EReal := max x zeroWord

/-- One dense layer at output column `j`: the row `a` against column `j` of `W`, plus bias `j`. -/
def dense {K N : Nat} (a : Fin K → EReal) (W : Fin K → Fin N → EReal) (b : Fin N → EReal) (j : Fin N) : EReal :=
  (∑ k : Fin K, a k * W k j) + b j

/-- One node's output row from its aggregated feature row `a`: `relu (a + bg)`, then `64 → 32 → 16 → 10` with a
    `relu` after the first two dense layers. -/
def rowNet (a bg : Fin 64 → EReal) (W1 : Fin 64 → Fin 32 → EReal) (b1 : Fin 32 → EReal)
    (W2 : Fin 32 → Fin 16 → EReal) (b2 : Fin 16 → EReal) (W3 : Fin 16 → Fin 10 → EReal) (b3 : Fin 10 → EReal)
    (j : Fin 10) : EReal :=
  dense (fun k2 => relu (dense (fun k1 => relu (dense (fun k0 => relu (a k0 + bg k0)) W1 b1 k1)) W2 b2 k2)) W3 b3 j

/-- A rank-2 array of extended reals. -/
abbrev Arr2 (n0 n1 : Nat) : Type := (⟨2, ![n0, n1]⟩ : Shape).Idx → EReal

/-- A matrix as a function of its two coordinates. -/
abbrev mat {n0 n1 : Nat} (A : Arr2 n0 n1) : Fin n0 → Fin n1 → EReal := fun a b => A (ix2 a b)

/-- Row `r` of a matrix. -/
abbrev row {n0 n1 : Nat} (A : Arr2 n0 n1) (r : Fin n0) : Fin n1 → EReal := fun b => A (ix2 r b)

/-- `x · W`, entry by entry: row `i 0` of `x` against column `i 1` of `W`. -/
def xw (x : Arr2 100000 256) (W : Arr2 256 64) : Arr2 100000 64 :=
  fun i => ∑ k : Fin 256, x (ix2 (i 0) k) * W (ix2 k (i 1))

/-- The network on every row of the aggregated features; each bias is given as a function of its one coordinate. -/
def net (agg : Arr2 100000 64) (bg : Fin 64 → EReal) (W1 : Arr2 64 32) (b1 : Fin 32 → EReal) (W2 : Arr2 32 16)
    (b2 : Fin 16 → EReal) (W3 : Arr2 16 10) (b3 : Fin 10 → EReal) : Arr2 100000 10 :=
  fun i => rowNet (row agg (i 0)) bg (mat W1) b1 (mat W2) b2 (mat W3) b3 (i 1)

end Cert.Net

end
-- ==== Proof.XwRegion.lean ====
/-
  Region 0 of the kernel program: the product of the node features with the convolution's weights.

  The region walks the 100000 rows of `x` in 20 blocks of 5000 rows.  At each block it multiplies the block
  (5000 × 256) by the whole weight matrix (256 × 64) into a zero accumulator and writes the 5000 × 64 result
  back to the same rows of the result array.  Read over the extended reals, where a change of float format is
  the identity and a product into a zero accumulator is the plain sum of products, entry `(i, j)` of the result is
  `∑ k, x[i, k] · W[k, j]`: the block that holds row `i` is block `i / 5000`, and inside it row `i` is row
  `i % 5000`.  The 20 blocks cover every row, so after the region the result array is `Cert.Net.xw x W`.
-/
import proofs.«133721_j14147622273474_1_alg».proof.Proof.Gen.KernelIdeal.Frame
import proofs.«133721_j14147622273474_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.XwRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an entry -/

/-- The left operand's row is the output's row. -/
theorem lhs_row (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The left operand's column is the summation index. -/
theorem lhs_col (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row is the summation index. -/
theorem rhs_row (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The right operand's column is the output's column. -/
theorem rhs_col (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- One block's result at row `r`, column `j`: the sum over `k` of the block's `(r, k)` entry times the weights'
    `(k, j)` entry.  The two changes of float format are the identity and the accumulator is zero. -/
theorem block_product_apply (x0 : Vec Ideal S5000x256 .f32) (x1 : Vec Ideal S256x64 .f32) (r : Fin 5000) (j : Fin 64) :
    k0_pay1 (F := Ideal) x0 x1 (ix2 r j) = ∑ k : Fin 256, x0 (ix2 r k) * x1 (ix2 k j) := by
  unfold k0_pay1
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 r j) ((contrEquiv1 dot_S5000x256_S256x64_S5000x64_1_0_0_1_n_n 256 rfl rfl).symm k) = ix2 r k := funext fun a => Fin.ext (by
    match a with
    | ⟨0, _⟩ => exact lhs_row _ _
    | ⟨1, _⟩ => exact (lhs_col _ _).trans hk)
  have er : dot_S5000x256_S256x64_S5000x64_1_0_0_1_n_n.rhsIdx (ix2 r j) ((contrEquiv1 dot_S5000x256_S256x64_S5000x64_1_0_0_1_n_n 256 rfl rfl).symm k) = ix2 k j := funext fun a => Fin.ext (by
    match a with
    | ⟨0, _⟩ => exact (rhs_row _ _).trans hk
    | ⟨1, _⟩ => exact rhs_col _ _)
  rw [truncf_apply, truncf_apply, el, er]

/-! ## What one grid point writes back -/

/-- The body loads and stores its buffers whole: from offsets `(0, 0)`. -/
theorem zero_offsets : (![0, 0] : Fin 2 → Nat) = fun _ => 0 := funext fun a => by fin_cases a <;> rfl

/-- The block index maps, decided over the 20 points: at point `t` the features' block and the result's block are
    block `t` of the rows and block `0` of the columns; the weights' block is always block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- `x · W` at row `a`, column `b`. -/
theorem xw_apply (X : Cert.Net.Arr2 100000 256) (W : Cert.Net.Arr2 256 64) (a : Fin 100000) (b : Fin 64) :
    Cert.Net.xw X W (ix2 a b) = ∑ k : Fin 256, X (ix2 a k) * W (ix2 k b) := rfl

section Blocks
variable (V : (c : Dev nD) → (b : Ref sig .tc) → Buf (Elt Ideal) ((c : Thread nD τ).loc b)) (c : Dev nD)

/-- Row `r` of the features' block at point `t` is row `5000 t + r` of the features, column by column. -/
theorem features_block_apply (t : Fin cfg0.N) (r : Fin 5000) (k : Fin 256) (h : t.val * 5000 + r.val < 100000) :
    iblk0 V c 0 t (ix2 r k) = V c main_arg0 (ix2 (⟨t.val * 5000 + r.val, h⟩ : Fin 100000) k) := by
  obtain ⟨e0, e1, -, -, -, -⟩ := block_indices t
  show V c main_arg0 (((cfg0.win 0).blk t).view.emb (ix2 r k)) = _
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 256 + 1 * k.val = k.val; omega

/-- The weights' block at every point is the whole weight matrix. -/
theorem weights_block_apply (t : Fin cfg0.N) (k : Fin 256) (j : Fin 64) :
    iblk0 V c 1 t (ix2 k j) = V c main_arg2 (ix2 k j) := by
  obtain ⟨-, -, e2, e3, -, -⟩ := block_indices t
  show V c main_arg2 (((cfg0.win 1).blk t).view.emb (ix2 k j)) = _
  refine congrArg (V c main_arg2) (funext fun a => Fin.ext ?_)
  match a with
  | ⟨0, _⟩ => show win0_1.index t (0 : Fin 2) * 256 + 1 * k.val = k.val; omega
  | ⟨1, _⟩ => show win0_1.index t (1 : Fin 2) * 64 + 1 * j.val = j.val; omega

/-- Point `t` writes back block `t` of `x · W`: rows `5000 t … 5000 t + 4999`, every column. -/
theorem written_back_eq (t : Fin cfg0.N) :
    (dat0 (F := Ideal) V c).flushed 2 t
      = ((cfg0.win 2).blk t).view.read (Elt Ideal) (Cert.Net.xw (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨-, -, -, -, e4, e5⟩ := block_indices t
  have ht : t.val < 20 := t.isLt
  funext y
  -- the entry's row and column inside the block, and its row in the whole array
  have hr : (y 0).val < 5000 := (y 0).isLt
  have hj : (y 1).val < 64 := (y 1).isLt
  have hrow : t.val * 5000 + (y 0).val < 100000 := by omega
  have hy : (cfg0.win 2).xinj (grid0.coords t) y = ix2 (⟨(y 0).val, hr⟩ : Fin 5000) (⟨(y 1).val, hj⟩ : Fin 64) :=
    funext fun a => match a with | ⟨0, _⟩ => rfl | ⟨1, _⟩ => rfl
  have hi : ((cfg0.win 2).blk t).view.emb y = ix2 (⟨t.val * 5000 + (y 0).val, hrow⟩ : Fin 100000) (⟨(y 1).val, hj⟩ : Fin 64) :=
    funext fun a => Fin.ext (by
      match a with
      | ⟨0, _⟩ => show win0_2.index t (0 : Fin 2) * 5000 + 1 * (y 0).val = t.val * 5000 + (y 0).val; omega
      | ⟨1, _⟩ => show win0_2.index t (1 : Fin 2) * 64 + 1 * (y 1).val = (y 1).val; omega)
  show k0_pay1 (F := Ideal) (iblk0 V c 0 t) (iblk0 V c 1 t) ((cfg0.win 2).xinj (grid0.coords t) y)
      = Cert.Net.xw (V c main_arg0) (V c main_arg2) (((cfg0.win 2).blk t).view.emb y)
  rw [hy, hi, block_product_apply]
  refine Eq.trans ?_ (xw_apply _ _ _ _).symm
  refine Finset.sum_congr rfl fun k _ => ?_
  rw [features_block_apply V c t ⟨(y 0).val, hr⟩ k hrow, weights_block_apply V c t k ⟨(y 1).val, hj⟩]

end Blocks

/-! ## The blocks cover the array -/

/-- An entry of the result array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry lies in a block that is written back: row `r` is in block `r / 5000`, and every block spans all 64 columns. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 5000 < cfg0.N := by show (i 0).val / 5000 < 20; omega
  obtain ⟨-, -, -, -, e4, e5⟩ := block_indices ⟨(i 0).val / 5000, hN⟩
  have e4' : win0_2.index ⟨(i 0).val / 5000, hN⟩ (0 : Fin 2) = (i 0).val / 5000 := e4
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 64 ≤ (i 1).val
      ∧ (i 1).val < win0_2.index ⟨(i 0).val / 5000, hN⟩ (1 : Fin 2) * 64 + 64
    omega

/-! ## The array after the region -/

/-- After region 0 the result array is `x · W` of the features and weights as the region finds them: every point writes
    back its block of that one array, and the blocks cover it. -/
theorem region0_array (V : (c : Dev nD) → (b : Ref sig .tc) → Buf (Elt Ideal) ((c : Thread nD τ).loc b)) (c : Dev nD) :
    (Gen.dat0 (F := Ideal) V c).arrAt 2 cfg0.N = Cert.Net.xw (V c main_arg0) (V c main_arg2) :=
  (dat0 V c).arrAt_eq_of_cover 2 (Cert.Net.xw (V c main_arg0) (V c main_arg2)) (fun t _ => written_back_eq V c t) covered

end Cert.KernelIdeal.XwRegion

end
-- ==== Proof.MlpRow.lean ====
/-
  The second kernel's computation on one block of rows, read at one entry.

  The block computation takes 5000 rows of aggregated features (64 numbers each), adds the convolution's bias row and
  clamps at zero, and then applies three dense layers 64 → 32 → 16 → 10, clamping at zero after the first two.  Over the
  extended reals a change of float format is the identity and a matrix product accumulated from zero is the plain sum of
  products, so the entry at row `r` and column `j` of the result is `Cert.Net.rowNet` of row `r` of the block, the
  four bias rows and the three weight matrices, at `j`: nothing of the other 4999 rows enters it.
-/
import proofs.«133721_j14147622273474_1_alg».proof.Proof.Gen.KernelIdeal.Skeleton
import proofs.«133721_j14147622273474_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MlpRow

open Cert.KernelIdeal Cert.KernelIdeal.Gen Idealize.ShloMosaic Idealize.ShloMosaic.ValueIdx
open scoped BigOperators

/-! ## The three matrix products: which operand entries meet at an output entry

For a product of a `[5000, K]` block with a `[K, N]` matrix, output entry `(r, j)` and contraction index `k` meet the
left operand at `(r, k)` and the right operand at `(k, j)`. -/

theorem lhs_64_32_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_64_32_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_64_32_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_64_32_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The first product, accumulated from zero, at `(r, j)`: the sum over the 64 features. -/
theorem matmul_64_32_apply (a : FVec Ideal S5000x64 .bf16) (w : FVec Ideal S64x32 .bf16) (r : Fin 5000) (j : Fin 32) :
    matmul dot_S5000x64_S64x32_S5000x32_1_0_0_1_n_n none a w (constant (F := Ideal) S5000x32 .f32 0x00000000#32) (ix2 r j)
      = ∑ k : Fin 64, a (ix2 r k) * w (ix2 k j) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 r j) ((ValueIdx.contrEquiv1 dot_S5000x64_S64x32_S5000x32_1_0_0_1_n_n 64 rfl rfl).symm k) = ix2 r k := funext fun a => Fin.ext (by
    match a with
    | ⟨0, _⟩ => exact lhs_64_32_0 _ _
    | ⟨1, _⟩ => exact (lhs_64_32_1 _ _).trans hk)
  have er : dot_S5000x64_S64x32_S5000x32_1_0_0_1_n_n.rhsIdx (ix2 r j) ((ValueIdx.contrEquiv1 dot_S5000x64_S64x32_S5000x32_1_0_0_1_n_n 64 rfl rfl).symm k) = ix2 k j := funext fun a => Fin.ext (by
    match a with
    | ⟨0, _⟩ => exact (rhs_64_32_0 _ _).trans hk
    | ⟨1, _⟩ => exact rhs_64_32_1 _ _)
  rw [el, er]

theorem lhs_32_16_0 (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs_32_16_1 (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q
theorem rhs_32_16_0 (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q
theorem rhs_32_16_1 (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- The second product, accumulated from zero, at `(r, j)`: the sum over the 32 hidden units. -/
theorem matmul_32_16_apply (a : FVec Ideal S5000x32 .bf16) (w : FVec Ideal S32x16 .bf16) (r : Fin 5000) (j : Fin 16) :
    matmul dot_S5000x32_S32x16_S5000x16_1_0_0_1_n_n none a w (constant (F := Ideal) S5000x16 .f32 0x00000000#32) (ix2 r j)
      = ∑ k : Fin 32, a (ix2 r k) * w (ix2 k j) := by
  simp only [matmul]
  rw [Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ix2 r j) ((ValueIdx.contrEquiv1 dot_S5000x32_S32x16_S5000x16_1_0_0_1_n_n 32 rfl rfl).symm k) = ix2 r k := funext fun a => Fin.ext (by
    match a with
    | ⟨0, _⟩ => exact lhs_32_16_0 _ _
    | ⟨1, _⟩ => exact (lhs_32_16_1 _ _).trans hk)
  have er : dot_S5000x32_S32x16_S5000x16_1_0_0_1_n_n.rhsIdx (ix2 r j) ((ValueIdx.contrEquiv1 dot_S5000x32_S32x16_S5000x16_1_0_0_1_n_n 32 rfl rfl).symm k) = ix2 k j := funext fun a => Fin.ext (by
    match a with
    | ⟨0, _⟩ => exact (rhs_32_16_0 _ _).trans hk
    | ⟨1, _⟩ => exact rhs_32_16_1 _ _)
  rw [el, er]

theorem lhs_16_10_0 (i : S5000x10.Idx) (q : dot_S5000x16_S16x10_S5000x10_1_0_0_1_n_n.contr.Idx) :
    (dot_S5000x16_S16x10_S5000x10_1_0_0_1_n_n.lhsIdx i q 0).val = (i 0).val := by
  unfold DotDims.lhsIdx
  rw [dif_neg (show ¬(0 : Fin S5000x16.rank) ∈ dot_S5000x16_S16x10_S5000x10_1_0_0_1_n_n.lhsBatch by decide), dif_pos (show (0 : Fin S5000x16.rank) ∈ dot_S5000x16_S16x10_S5000x10_1_0_0_1_n_n.lhsNonContracting by decide)]
  rfl
theorem lhs_16_10_1 (i : S5000x10.Idx) (q : dot_S5000x16_S16x10_S5000x10_1_0_0_1_n_n.contr.Idx) :
    (dot_S5000x16_S16x10_S5000x10_1_0_0_1_n_n.lhsIdx i q 1).val = (q ⟨0, by decide⟩).val :=
  dot_S5000x16_S16x10_S5000x10_1_0_0_1_n_n.lhsIdx_val_of_single rfl i q
theorem rhs_16_10_0 (i : S5000x10.Idx) (q : dot_S5000x16_S16x10_S5000x10_1_0_0_1_n_n.contr.Idx) :
    (dot_S5000x16_S16x10_S5000x10_1_0_0_1_n_n.rhsIdx i q 0).val = (q ⟨0, by decide⟩).val :=
  dot_S5000x16_S16x10_S5000x10_1_0_0_1_n_n.rhsIdx_val_of_single rfl i q
theorem rhs_16_10_1 (i : S5000x10.Idx) (q : dot_S5000x16_S16x10_S5000x10_1_0_0_1_n_n.contr.Idx) :
    (dot_S5000x16_S16x10_S5000x10_1_0_0_1_n_n.rhsIdx i q 1).val = (i 1).val := by
  unfold DotDims.rhsIdx
  rw [dif_neg (show ¬(1 : Fin S16x10.rank) ∈ dot_S5000x16_S16x10_S5000x10_1_0_0_1_n_n.rhsBatch by decide), dif_pos (show (1 : Fin S16x10.rank) ∈ dot_S5000x16_S16x10_S5000x10_1_0_0_1_n_n.rhsNonContracting by decide)]
  rfl

/-- The third product, accumulated from zero, at `(r, j)`: the sum over the 16 hidden units. -/
theorem matmul_16_10_apply (a : FVec Ideal S5000x16 .bf16) (w : FVec Ideal S16x10 .bf16) (r : Fin 5000) (j : Fin 10) :
    matmul dot_S5000x16_S16x10_S5000x10_1_0_0_1_n_n none a w (constant (F := Ideal) S5000x10 .f32 0x00000000#32) (ix2 r j)
      = ∑ k : Fin 16, a (ix2 r k) * w (ix2 k j) := by
  simp only [matmul]
  rw [Ideal.matmul_constant_zero_apply, ← Equiv.sum_comp (ValueIdx.contrEquiv1 dot_S5000x16_S16x10_S5000x10_1_0_0_1_n_n 16 rfl rfl).symm]
  refine Finset.sum_congr rfl fun k _ => ?_
  have hk := ValueIdx.contrEquiv1_symm_val dot_S5000x16_S16x10_S5000x10_1_0_0_1_n_n 16 rfl rfl k
  have el : dot_S5000x16_S16x10_S5000x10_1_0_0_1_n_n.lhsIdx (ix2 r j) ((ValueIdx.contrEquiv1 dot_S5000x16_S16x10_S5000x10_1_0_0_1_n_n 16 rfl rfl).symm k) = ix2 r k := funext fun a => Fin.ext (by
    match a with
    | ⟨0, _⟩ => exact lhs_16_10_0 _ _
    | ⟨1, _⟩ => exact (lhs_16_10_1 _ _).trans hk)
  have er : dot_S5000x16_S16x10_S5000x10_1_0_0_1_n_n.rhsIdx (ix2 r j) ((ValueIdx.contrEquiv1 dot_S5000x16_S16x10_S5000x10_1_0_0_1_n_n 16 rfl rfl).symm k) = ix2 k j := funext fun a => Fin.ext (by
    match a with
    | ⟨0, _⟩ => exact (rhs_16_10_0 _ _).trans hk
    | ⟨1, _⟩ => exact rhs_16_10_1 _ _)
  rw [el, er]

/-! ## The layers at an entry -/

/-- Clamping at zero, entry by entry: `relu` of the entry (the zero word is the specification's own). -/
theorem relu_apply {s : Shape} (y : FVec Ideal s .f32) (i : s.Idx) :
    maximumf y (broadcast s (Scalar.ofBits .f32 0x00000000#32 : Ideal .f32)) i = Cert.Net.relu (y i) := rfl

/-- The convolution's bias row added to every row of the block, then clamped at zero, at `(r, k)`. -/
theorem biased_relu_apply (x : Vec Ideal S5000x64 .f32) (b : Vec Ideal S1x64 .f32)
    (hx : S5000x64.ShapeCasts S5000x64) (hb : S1x64.ShapeCasts S1x64) (hbc : S1x64.Broadcasts S5000x64) (r : Fin 5000) (k : Fin 64) :
    maximumf (addf (shapeCast S5000x64 x hx : FVec Ideal S5000x64 .f32) (broadcastTo S5000x64 (shapeCast S1x64 b hb : FVec Ideal S1x64 .f32) hbc))
        (broadcast S5000x64 (Scalar.ofBits .f32 0x00000000#32 : Ideal .f32)) (ix2 r k)
      = Cert.Net.relu (x (ix2 r k) + b (ix2 0 k)) := by
  refine (relu_apply _ _).trans (congrArg Cert.Net.relu ?_)
  show shapeCast S5000x64 x hx (ix2 r k) + broadcastTo S5000x64 (shapeCast S1x64 b hb) hbc (ix2 r k) = x (ix2 r k) + b (ix2 0 k)
  rw [shapeCast_self, broadcastTo_1b_ab_apply, shapeCast_self]

/-- The first dense layer at `(r, j)`: the row of the clamped block against column `j` of the weights, plus bias `j`. -/
theorem dense_64_32_apply (x : FVec Ideal S5000x64 .f32) (w : Vec Ideal S64x32 .f32) (b : Vec Ideal S1x32 .f32)
    (ht : FTy.bits .bf16 < FTy.bits .f32) (hb : S1x32.ShapeCasts S1x32) (hbc : S1x32.Broadcasts S5000x32) (r : Fin 5000) (j : Fin 32) :
    addf (matmul dot_S5000x64_S64x32_S5000x32_1_0_0_1_n_n none (truncf .bf16 x ht) (truncf .bf16 (w : FVec Ideal S64x32 .f32) ht) (constant (F := Ideal) S5000x32 .f32 0x00000000#32))
        (broadcastTo S5000x32 (shapeCast S1x32 b hb : FVec Ideal S1x32 .f32) hbc) (ix2 r j)
      = Cert.Net.dense (fun k => x (ix2 r k)) (fun a c => w (ix2 a c)) (fun k => b (ix2 0 k)) j := by
  show matmul dot_S5000x64_S64x32_S5000x32_1_0_0_1_n_n none (truncf .bf16 x ht) (truncf .bf16 (w : FVec Ideal S64x32 .f32) ht) (constant (F := Ideal) S5000x32 .f32 0x00000000#32) (ix2 r j)
      + broadcastTo S5000x32 (shapeCast S1x32 b hb) hbc (ix2 r j) = (∑ k : Fin 64, x (ix2 r k) * w (ix2 k j)) + b (ix2 0 j)
  rw [matmul_64_32_apply, broadcastTo_1b_ab_apply, shapeCast_self]
  rfl

/-- The second dense layer at `(r, j)`. -/
theorem dense_32_16_apply (x : FVec Ideal S5000x32 .f32) (w : Vec Ideal S32x16 .f32) (b : Vec Ideal S1x16 .f32)
    (ht : FTy.bits .bf16 < FTy.bits .f32) (hb : S1x16.ShapeCasts S1x16) (hbc : S1x16.Broadcasts S5000x16) (r : Fin 5000) (j : Fin 16) :
    addf (matmul dot_S5000x32_S32x16_S5000x16_1_0_0_1_n_n none (truncf .bf16 x ht) (truncf .bf16 (w : FVec Ideal S32x16 .f32) ht) (constant (F := Ideal) S5000x16 .f32 0x00000000#32))
        (broadcastTo S5000x16 (shapeCast S1x16 b hb : FVec Ideal S1x16 .f32) hbc) (ix2 r j)
      = Cert.Net.dense (fun k => x (ix2 r k)) (fun a c => w (ix2 a c)) (fun k => b (ix2 0 k)) j := by
  show matmul dot_S5000x32_S32x16_S5000x16_1_0_0_1_n_n none (truncf .bf16 x ht) (truncf .bf16 (w : FVec Ideal S32x16 .f32) ht) (constant (F := Ideal) S5000x16 .f32 0x00000000#32) (ix2 r j)
      + broadcastTo S5000x16 (shapeCast S1x16 b hb) hbc (ix2 r j) = (∑ k : Fin 32, x (ix2 r k) * w (ix2 k j)) + b (ix2 0 j)
  rw [matmul_32_16_apply, broadcastTo_1b_ab_apply, shapeCast_self]
  rfl

/-- The third dense layer at `(r, j)`. -/
theorem dense_16_10_apply (x : FVec Ideal S5000x16 .f32) (w : Vec Ideal S16x10 .f32) (b : Vec Ideal S1x10 .f32)
    (ht : FTy.bits .bf16 < FTy.bits .f32) (hb : S1x10.ShapeCasts S1x10) (hbc : S1x10.Broadcasts S5000x10) (r : Fin 5000) (j : Fin 10) :
    addf (matmul dot_S5000x16_S16x10_S5000x10_1_0_0_1_n_n none (truncf .bf16 x ht) (truncf .bf16 (w : FVec Ideal S16x10 .f32) ht) (constant (F := Ideal) S5000x10 .f32 0x00000000#32))
        (broadcastTo S5000x10 (shapeCast S1x10 b hb : FVec Ideal S1x10 .f32) hbc) (ix2 r j)
      = Cert.Net.dense (fun k => x (ix2 r k)) (fun a c => w (ix2 a c)) (fun k => b (ix2 0 k)) j := by
  show matmul dot_S5000x16_S16x10_S5000x10_1_0_0_1_n_n none (truncf .bf16 x ht) (truncf .bf16 (w : FVec Ideal S16x10 .f32) ht) (constant (F := Ideal) S5000x10 .f32 0x00000000#32) (ix2 r j)
      + broadcastTo S5000x10 (shapeCast S1x10 b hb) hbc (ix2 r j) = (∑ k : Fin 16, x (ix2 r k) * w (ix2 k j)) + b (ix2 0 j)
  rw [matmul_16_10_apply, broadcastTo_1b_ab_apply, shapeCast_self]
  rfl

/-! ## The whole block computation at an entry -/

/-- Entry `(r, j)` of the block computation is the network on row `r` of the block, at `j`. -/
theorem payload_apply (x0 : Vec Ideal S5000x64 .f32) (x1 : Vec Ideal S1x64 .f32) (x2 : Vec Ideal S64x32 .f32) (x3 : Vec Ideal S1x32 .f32)
    (x4 : Vec Ideal S32x16 .f32) (x5 : Vec Ideal S1x16 .f32) (x6 : Vec Ideal S16x10 .f32) (x7 : Vec Ideal S1x10 .f32) (r : Fin 5000) (j : Fin 10) :
    k1_pay1 (F := Ideal) x0 x1 x2 x3 x4 x5 x6 x7 (ix2 r j)
      = Cert.Net.rowNet (fun k => x0 (ix2 r k)) (fun k => x1 (ix2 0 k)) (fun a b => x2 (ix2 a b)) (fun k => x3 (ix2 0 k))
          (fun a b => x4 (ix2 a b)) (fun k => x5 (ix2 0 k)) (fun a b => x6 (ix2 a b)) (fun k => x7 (ix2 0 k)) j := by
  unfold k1_pay1 Cert.Net.rowNet
  refine (dense_16_10_apply _ x6 x7 _ _ _ r j).trans ?_
  refine congrArg (fun a => Cert.Net.dense a _ _ j) (funext fun k2 => ?_)
  refine (relu_apply _ _).trans (congrArg Cert.Net.relu ?_)
  refine (dense_32_16_apply _ x4 x5 _ _ _ r k2).trans ?_
  refine congrArg (fun a => Cert.Net.dense a _ _ k2) (funext fun k1 => ?_)
  refine (relu_apply _ _).trans (congrArg Cert.Net.relu ?_)
  refine (dense_64_32_apply _ x2 x3 _ _ _ r k1).trans ?_
  refine congrArg (fun a => Cert.Net.dense a _ _ k1) (funext fun k0 => ?_)
  exact biased_relu_apply x0 x1 _ _ _ r k0

end Cert.KernelIdeal.MlpRow

end
-- ==== Proof.MlpRegion.lean ====
/-
  The second kernel over the whole array.

  The grid has 20 points.  Point `t` takes rows `5000 t … 5000 t + 4999` of the aggregated features, each of the four bias rows
  and three weight matrices whole, and writes rows `5000 t … 5000 t + 4999` of the result.  Entry `(r, j)` of what it writes is
  the network on row `r` of its block of features (MlpRow), which is row `5000 t + r` of the array; the 20 blocks cover all
  100000 rows, so after the region the result array is `Cert.Net.net` of the arrays as the region finds them.
-/
import proofs.«133721_j14147622273474_1_alg».proof.Proof.Gen.KernelIdeal.Frame
import proofs.«133721_j14147622273474_1_alg».proof.Proof.Spec
import proofs.«133721_j14147622273474_1_alg».proof.Proof.MlpRow
import Idealize.ShloMosaic.Lib.Pipeline.Value
import Idealize.ShloMosaic.Lib.ValueIdx

set_option maxRecDepth 16384

noncomputable section

namespace Cert.KernelIdeal.MlpRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the region leaves in the result array: the network on every row of the aggregated features, with the biases
    and weights as the region finds them. -/
abbrev result (c : Dev nD) : Cert.Net.Arr2 100000 10 :=
  Cert.Net.net (V c main_v43) (fun k => V c main_v44 (ix2 0 k)) (V c main_arg4) (fun k => V c main_v45 (ix2 0 k))
    (V c main_arg6) (fun k => V c main_v46 (ix2 0 k)) (V c main_arg8) (fun k => V c main_v47 (ix2 0 k))

/-! ## Which block each window shows at a point (decided over the 20 points) -/

/-- The two zero offsets of a whole-buffer access, as a constant function. -/
theorem zeros2 : (![0, 0] : Fin 2 → Nat) = fun _ => 0 := funext fun a => by
  match a with
  | ⟨0, _⟩ => rfl
  | ⟨1, _⟩ => rfl

/-- The features' window shows block `(t, 0)`. -/
theorem index_features : ∀ t : Fin cfg1.N, win1_0.index t (0 : Fin 2) = t.val ∧ win1_0.index t (1 : Fin 2) = 0 :=
  (by decide +kernel : ∀ t : Fin grid1.N, _)
/-- The result's window shows block `(t, 0)`. -/
theorem index_result : ∀ t : Fin cfg1.N, win1_8.index t (0 : Fin 2) = t.val ∧ win1_8.index t (1 : Fin 2) = 0 :=
  (by decide +kernel : ∀ t : Fin grid1.N, _)
/-- Each bias row and weight matrix is one block, shown at every point. -/
theorem index_params : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-! ## Where an entry of a block sits in its array -/

/-- Entry `(r, j)` of the result's block at point `t` is entry `(5000 t + r, j)` of the result array. -/
theorem result_row (t : Fin cfg1.N) (r : Fin 5000) (j : Fin 10) :
    ((((cfg1.win 8).blk t).view.emb (ix2 r j)) 0).val = t.val * 5000 + r.val
    ∧ ((((cfg1.win 8).blk t).view.emb (ix2 r j)) 1).val = j.val := by
  obtain ⟨e0, e1⟩ := index_result t
  constructor
  · show win1_8.index t (0 : Fin 2) * 5000 + 1 * r.val = t.val * 5000 + r.val
    omega
  · show win1_8.index t (1 : Fin 2) * 10 + 1 * j.val = j.val
    omega

/-- Entry `(r, k)` of the features' block at point `t` is on the array's row of the result's entry `(r, j)`. -/
theorem features_index (t : Fin cfg1.N) (r : Fin 5000) (k : Fin 64) (j : Fin 10) :
    ((cfg1.win 0).blk t).view.emb (ix2 r k) = (ix2 ((((cfg1.win 8).blk t).view.emb (ix2 r j)) 0) k : S100000x64.Idx) := by
  obtain ⟨e0, e1⟩ := index_features t
  obtain ⟨f0, -⟩ := result_row t r j
  funext a; apply Fin.ext
  match a with
  | ⟨0, _⟩ =>
    show win1_0.index t (0 : Fin 2) * 5000 + 1 * r.val = ((((cfg1.win 8).blk t).view.emb (ix2 r j)) 0).val
    omega
  | ⟨1, _⟩ =>
    show win1_0.index t (1 : Fin 2) * 64 + 1 * k.val = k.val
    omega

/-- A bias row or weight matrix is its own one block: an entry of the block sits at the same place in the array. -/
theorem bias64_index (t : Fin cfg1.N) (k : Fin 64) :
    ((cfg1.win 1).blk t).view.emb (ix2 (0 : Fin 1) k) = (ix2 (0 : Fin 1) k : S1x64.Idx) := by
  obtain ⟨⟨e0, e1⟩, -⟩ := index_params t
  funext a; apply Fin.ext
  match a with
  | ⟨0, _⟩ => show win1_1.index t (0 : Fin 2) * 1 + 1 * 0 = 0; omega
  | ⟨1, _⟩ => show win1_1.index t (1 : Fin 2) * 64 + 1 * k.val = k.val; omega
theorem weight64_32_index (t : Fin cfg1.N) (a' : Fin 64) (b' : Fin 32) :
    ((cfg1.win 2).blk t).view.emb (ix2 a' b') = (ix2 a' b' : S64x32.Idx) := by
  obtain ⟨-, ⟨e0, e1⟩, -⟩ := index_params t
  funext a; apply Fin.ext
  match a with
  | ⟨0, _⟩ => show win1_2.index t (0 : Fin 2) * 64 + 1 * a'.val = a'.val; omega
  | ⟨1, _⟩ => show win1_2.index t (1 : Fin 2) * 32 + 1 * b'.val = b'.val; omega
theorem bias32_index (t : Fin cfg1.N) (k : Fin 32) :
    ((cfg1.win 3).blk t).view.emb (ix2 (0 : Fin 1) k) = (ix2 (0 : Fin 1) k : S1x32.Idx) := by
  obtain ⟨-, -, ⟨e0, e1⟩, -⟩ := index_params t
  funext a; apply Fin.ext
  match a with
  | ⟨0, _⟩ => show win1_3.index t (0 : Fin 2) * 1 + 1 * 0 = 0; omega
  | ⟨1, _⟩ => show win1_3.index t (1 : Fin 2) * 32 + 1 * k.val = k.val; omega
theorem weight32_16_index (t : Fin cfg1.N) (a' : Fin 32) (b' : Fin 16) :
    ((cfg1.win 4).blk t).view.emb (ix2 a' b') = (ix2 a' b' : S32x16.Idx) := by
  obtain ⟨-, -, -, ⟨e0, e1⟩, -⟩ := index_params t
  funext a; apply Fin.ext
  match a with
  | ⟨0, _⟩ => show win1_4.index t (0 : Fin 2) * 32 + 1 * a'.val = a'.val; omega
  | ⟨1, _⟩ => show win1_4.index t (1 : Fin 2) * 16 + 1 * b'.val = b'.val; omega
theorem bias16_index (t : Fin cfg1.N) (k : Fin 16) :
    ((cfg1.win 5).blk t).view.emb (ix2 (0 : Fin 1) k) = (ix2 (0 : Fin 1) k : S1x16.Idx) := by
  obtain ⟨-, -, -, -, ⟨e0, e1⟩, -⟩ := index_params t
  funext a; apply Fin.ext
  match a with
  | ⟨0, _⟩ => show win1_5.index t (0 : Fin 2) * 1 + 1 * 0 = 0; omega
  | ⟨1, _⟩ => show win1_5.index t (1 : Fin 2) * 16 + 1 * k.val = k.val; omega
theorem weight16_10_index (t : Fin cfg1.N) (a' : Fin 16) (b' : Fin 10) :
    ((cfg1.win 6).blk t).view.emb (ix2 a' b') = (ix2 a' b' : S16x10.Idx) := by
  obtain ⟨-, -, -, -, -, ⟨e0, e1⟩, -⟩ := index_params t
  funext a; apply Fin.ext
  match a with
  | ⟨0, _⟩ => show win1_6.index t (0 : Fin 2) * 16 + 1 * a'.val = a'.val; omega
  | ⟨1, _⟩ => show win1_6.index t (1 : Fin 2) * 10 + 1 * b'.val = b'.val; omega
theorem bias10_index (t : Fin cfg1.N) (k : Fin 10) :
    ((cfg1.win 7).blk t).view.emb (ix2 (0 : Fin 1) k) = (ix2 (0 : Fin 1) k : S1x10.Idx) := by
  obtain ⟨-, -, -, -, -, -, e0, e1⟩ := index_params t
  funext a; apply Fin.ext
  match a with
  | ⟨0, _⟩ => show win1_7.index t (0 : Fin 2) * 1 + 1 * 0 = 0; omega
  | ⟨1, _⟩ => show win1_7.index t (1 : Fin 2) * 10 + 1 * k.val = k.val; omega

/-! ## What a point writes back -/

/-- The network depends on its eight arguments and its column only through their values. -/
theorem rowNet_congr {a a' bg bg' : Fin 64 → EReal} {W1 W1' : Fin 64 → Fin 32 → EReal} {b1 b1' : Fin 32 → EReal}
    {W2 W2' : Fin 32 → Fin 16 → EReal} {b2 b2' : Fin 16 → EReal} {W3 W3' : Fin 16 → Fin 10 → EReal} {b3 b3' : Fin 10 → EReal}
    {j j' : Fin 10} (ha : a = a') (hbg : bg = bg') (hW1 : W1 = W1') (hb1 : b1 = b1') (hW2 : W2 = W2') (hb2 : b2 = b2')
    (hW3 : W3 = W3') (hb3 : b3 = b3') (hj : j = j') :
    Cert.Net.rowNet a bg W1 b1 W2 b2 W3 b3 j = Cert.Net.rowNet a' bg' W1' b1' W2' b2' W3' b3' j' := by
  subst ha hbg hW1 hb1 hW2 hb2 hW3 hb3 hj; rfl

/-- What point `t` writes back is its block of the network's result on the whole array. -/
theorem flushed_eq (c : Dev nD) (t : Fin cfg1.N) :
    (dat1 (F := Ideal) V c).flushed 8 t = ((cfg1.win 8).blk t).view.read (Elt Ideal) (result V c) := by
  show (cfg1.win 8).cut (grid1.coords t) ((dat1 V c).after 8 t) = _
  rw [after1_8]
  unfold out1_8
  rw [View.canon_unit_zero zeros2]
  simp only [View.ld_unit_zero (S := S5000x64) zeros2, View.ld_unit_zero (S := S1x64) zeros2, View.ld_unit_zero (S := S64x32) zeros2,
    View.ld_unit_zero (S := S1x32) zeros2, View.ld_unit_zero (S := S32x16) zeros2, View.ld_unit_zero (S := S1x16) zeros2,
    View.ld_unit_zero (S := S16x10) zeros2, View.ld_unit_zero (S := S1x10) zeros2]
  refine funext fun y => ?_
  obtain ⟨r, j, rfl⟩ : ∃ (r : Fin 5000) (j : Fin 10), y = ix2 r j := ⟨y 0, y 1, eq_ix2 (n0 := 5000) (n1 := 10) y⟩
  show k1_pay1 (F := Ideal) (iblk1 V c 0 t) (iblk1 V c 1 t) (iblk1 V c 2 t) (iblk1 V c 3 t) (iblk1 V c 4 t) (iblk1 V c 5 t)
      (iblk1 V c 6 t) (iblk1 V c 7 t) (ix2 r j) = result V c (((cfg1.win 8).blk t).view.emb (ix2 r j))
  refine (MlpRow.payload_apply _ _ _ _ _ _ _ _ r j).trans ?_
  refine rowNet_congr (funext fun k => ?_) (funext fun k => ?_) (funext fun a => funext fun b => ?_) (funext fun k => ?_)
    (funext fun a => funext fun b => ?_) (funext fun k => ?_) (funext fun a => funext fun b => ?_) (funext fun k => ?_) ?_
  · exact congrArg (V c main_v43) (features_index t r k j)
  · exact congrArg (V c main_v44) (bias64_index t k)
  · exact congrArg (V c main_arg4) (weight64_32_index t a b)
  · exact congrArg (V c main_v45) (bias32_index t k)
  · exact congrArg (V c main_arg6) (weight32_16_index t a b)
  · exact congrArg (V c main_v46) (bias16_index t k)
  · exact congrArg (V c main_arg8) (weight16_10_index t a b)
  · exact congrArg (V c main_v47) (bias10_index t k)
  · exact Fin.ext (result_row t r j).2.symm

/-! ## The 20 blocks cover the array -/

/-- An entry of the result array is in point `t`'s block iff each coordinate is in the block's range on its axis. -/
theorem mem_block (t : Fin cfg1.N) (i : S100000x10.Idx) :
    i ∈ ((cfg1.win 8).blk t).view.set ↔ ∀ a : Fin 2, win1_8.index t a * S5000x10.size a ≤ (i a).val
      ∧ (i a).val < win1_8.index t a * S5000x10.size a + S5000x10.size a := by
  show i ∈ ((View.whole main_v48).slice (win1_8.rect t)).set ↔ _
  rw [View.set_slice_whole, Rect.mem_set_unit]
  exact Iff.rfl

/-- Row `i` of the result array is in the block of point `i / 5000`, which writes back. -/
theorem covered (i : S100000x10.Idx) :
    ∃ t : Fin cfg1.N, (cfg1.win 8).flush t = true ∧ i ∈ ((cfg1.win 8).blk t).view.set := by
  have hi0 : (i 0).val < 100000 := (i 0).isLt
  have hi1 : (i 1).val < 10 := (i 1).isLt
  have hN : grid1.N = 20 := N_1
  have ht : (i 0).val / 5000 < cfg1.N := by show (i 0).val / 5000 < grid1.N; omega
  refine ⟨⟨(i 0).val / 5000, ht⟩, flush1_8 _, ?_⟩
  obtain ⟨e0, e1⟩ := index_result ⟨(i 0).val / 5000, ht⟩
  have e0' : win1_8.index ⟨(i 0).val / 5000, ht⟩ (0 : Fin 2) = (i 0).val / 5000 := e0
  rw [mem_block]
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    omega
  | ⟨1, _⟩ =>
    show win1_8.index ⟨(i 0).val / 5000, ht⟩ (1 : Fin 2) * 10 ≤ (i 1).val
      ∧ (i 1).val < win1_8.index ⟨(i 0).val / 5000, ht⟩ (1 : Fin 2) * 10 + 10
    omega

/-! ## The result array after the region -/

/-- After the region the result array holds, at row `i` and column `j`, the network on row `i` of the aggregated features,
    the four bias rows and the three weight matrices as the region finds them, at `j`. -/
theorem region1_array (V : (c : Dev nD) → (b : Ref sig .tc) → Buf (Elt Ideal) ((c : Thread nD τ).loc b)) (c : Dev nD) :
    (Gen.dat1 (F := Ideal) V c).arrAt 8 cfg1.N
      = Cert.Net.net (V c main_v43) (fun k => V c main_v44 (ix2 0 k)) (V c main_arg4) (fun k => V c main_v45 (ix2 0 k))
          (V c main_arg6) (fun k => V c main_v46 (ix2 0 k)) (V c main_arg8) (fun k => V c main_v47 (ix2 0 k)) :=
  (dat1 (F := Ideal) V c).arrAt_eq_of_cover 8 (result V c) (fun t _ => flushed_eq V c t) covered

end Cert.KernelIdeal.MlpRegion

end
-- ==== Proof.Aggregate.lean ====
/-
  The graph convolution's aggregation as ONE function of the edge list `e` and the transformed features `h`:
  with a self-loop added to every node, `deg` counts the edges into each node, `norm` of an edge is
  `deg[src]^(-1/2) · deg[dst]^(-1/2)` (zero where the degree is zero), each edge's message is row `src` of `h` scaled by its
  `norm`, and the result sums the messages into row `dst`.  Both programs compute it with the same host operations on
  the same edge list; they differ only in how `h` was computed.  The index and scale vectors (which depend on `e` alone)
  are the reference's stages; nothing below looks inside the gather or the scatter-add.
-/
import proofs.«133721_j14147622273474_1_alg».proof.Proof.RefRead

noncomputable section

namespace Cert.Aggregate

open Cert.ReferenceIdeal Cert.ReferenceIdeal.ReadP Idealize.ShloMosaic

variable {F : FTy → Type} [FloatOps F]

/-- `agg e h`: the messages `h[src] · norm`, scatter-added into a zero array at `dst`. -/
def agg (e : (⟨S2x3200000, .i32⟩ : BufTy).Contents (Elt F)) (h : (⟨S100000x64, .f32⟩ : BufTy).Contents (Elt F)) : (⟨S100000x64, .f32⟩ : BufTy).Contents (Elt F) :=
  Host.scatterAdd scatter_S100000x64_S3300000x1_S3300000x64_1_0_0_1 (val_main_v41 (F := F)) (val_main_v42 (F := F) e)
    (mulf (Host.gather gather_S100000x64_S3300000x1_S3300000x64_1_0_n_n_0_1_164 h (val_main_v36 (F := F) e)) (val_main_v39 (F := F) e))

/-- The reference's aggregated features are `agg` of its edge list and its product `x · W`. -/
theorem ref_agg (x0 : (⟨S100000x256, .f32⟩ : BufTy).Contents (Elt F)) (x1 : (⟨S2x3200000, .i32⟩ : BufTy).Contents (Elt F)) (x2 : (⟨S256x64, .f32⟩ : BufTy).Contents (Elt F)) :
    val_main_v43 (F := F) x0 x1 x2 = agg x1 (val_main_v30 (F := F) x0 x2) := rfl

end Cert.Aggregate

end
-- ==== Proof.HostMid.lean ====
/-
  What region 1 is entered with.  Between the two kernel regions the host computes the aggregation of region 0's result
  over the edge list and reshapes each bias `[n]` to a row `[1, n]`; it writes no argument array.  So at region 1's
  entry: the aggregated features are `agg` of the edge list as launched and of what region 0 left in its result array;
  a bias row read at `(0, k)` is the bias as launched at `k`; the three weight matrices are as launched.
-/
import proofs.«133721_j14147622273474_1_alg».proof.Proof.Gen.KernelIdeal.Frame
import proofs.«133721_j14147622273474_1_alg».proof.Proof.Aggregate
import Idealize.ShloMosaic.Lib.StableHlo.Run
import Idealize.ShloMosaic.Lib.ValueLayout
import Idealize.ShloMosaic.Lib.ValueIdx

set_option maxRecDepth 16384

noncomputable section

namespace Cert.KernelIdeal.HostMid

open Cert.KernelIdeal Cert.KernelIdeal.Gen Idealize.ShloMosaic Idealize.ShloMosaic.TcCoe Idealize.SL.Sem
open Idealize.ShloMosaic.StableHlo Idealize.ShloMosaic.ValueIdx Cert.Aggregate

variable {F : FTy → Type} [FloatOps F]
variable (m : (ℓ : Loc nD τ sig) → Buf (Elt F) ℓ) (ρ : Dev nD → PrngReg)

/-- Region 0 does not write the edge list. -/
theorem edges_kept (c : Dev nD) : W1 m ρ c (Proc.devRef .tc main_arg1) = m ((c : Thread nD τ).loc main_arg1) :=
  W1_of_ne m ρ c main_arg1 (by decide)

/-- The aggregated features at region 1's entry: the host's operations between the regions ARE `agg` of the edge list
    and of region 0's result array (the same operations, in the same order, as the reference applies to its product). -/
theorem entry_agg (c : Dev nD) :
    V4 m ρ c main_v43 = agg (m ((c : Thread nD τ).loc main_arg1)) ((dat0 (V0 m ρ) c).arrAt 2 cfg0.N) := by
  have h : W4 m ρ c (Proc.devRef .tc main_v43)
      = agg (W1 m ρ c (Proc.devRef .tc main_arg1)) (W1 m ρ c (Proc.devRef .tc main_v0)) := by
    show after hostOps1_2 (after hostOps1_1 (after hostOps1 (W1 m ρ c))) (Proc.devRef .tc main_v43) = _
    after_results_simp
    try simp only [TRef.ofBuf, TRef.toBuf, cast_eq]
    rfl
  rw [edges_kept m ρ c, show W1 m ρ c (Proc.devRef .tc main_v0) = (dat0 (V0 m ρ) c).arrAt 2 cfg0.N from W1_arr m ρ c 2] at h
  exact h

/-- The convolution's bias row at region 1's entry, read at `(0, k)`. -/
theorem entry_bias_gcn (c : Dev nD) (k : Fin 64) :
    V4 m ρ c main_v44 (ix2 (0 : Fin 1) k) = m ((c : Thread nD τ).loc main_arg3) (ix1 k) := by
  have h : W4 m ρ c (Proc.devRef .tc main_v44) = shapeCast S1x64 (W1 m ρ c (Proc.devRef .tc main_arg3)) shapeCasts_S64_S1x64 := by
    show after hostOps1_2 (after hostOps1_1 (after hostOps1 (W1 m ρ c))) (Proc.devRef .tc main_v44) = _
    after_results_simp
    rfl
  show W4 m ρ c (Proc.devRef .tc main_v44) (ix2 (0 : Fin 1) k) = _
  rw [h, shapeCast_a_1a_apply, W1_of_ne m ρ c main_arg3 (by decide)]

/-- The first hidden layer's bias row. -/
theorem entry_bias1 (c : Dev nD) (k : Fin 32) :
    V4 m ρ c main_v45 (ix2 (0 : Fin 1) k) = m ((c : Thread nD τ).loc main_arg5) (ix1 k) := by
  have h : W4 m ρ c (Proc.devRef .tc main_v45) = shapeCast S1x32 (W1 m ρ c (Proc.devRef .tc main_arg5)) shapeCasts_S32_S1x32 := by
    show after hostOps1_2 (after hostOps1_1 (after hostOps1 (W1 m ρ c))) (Proc.devRef .tc main_v45) = _
    after_results_simp
    rfl
  show W4 m ρ c (Proc.devRef .tc main_v45) (ix2 (0 : Fin 1) k) = _
  rw [h, shapeCast_a_1a_apply, W1_of_ne m ρ c main_arg5 (by decide)]

/-- The second hidden layer's bias row. -/
theorem entry_bias2 (c : Dev nD) (k : Fin 16) :
    V4 m ρ c main_v46 (ix2 (0 : Fin 1) k) = m ((c : Thread nD τ).loc main_arg7) (ix1 k) := by
  have h : W4 m ρ c (Proc.devRef .tc main_v46) = shapeCast S1x16 (W1 m ρ c (Proc.devRef .tc main_arg7)) shapeCasts_S16_S1x16 := by
    show after hostOps1_2 (after hostOps1_1 (after hostOps1 (W1 m ρ c))) (Proc.devRef .tc main_v46) = _
    after_results_simp
    rfl
  show W4 m ρ c (Proc.devRef .tc main_v46) (ix2 (0 : Fin 1) k) = _
  rw [h, shapeCast_a_1a_apply, W1_of_ne m ρ c main_arg7 (by decide)]

/-- The output layer's bias row. -/
theorem entry_bias3 (c : Dev nD) (k : Fin 10) :
    V4 m ρ c main_v47 (ix2 (0 : Fin 1) k) = m ((c : Thread nD τ).loc main_arg9) (ix1 k) := by
  have h : W4 m ρ c (Proc.devRef .tc main_v47) = shapeCast S1x10 (W1 m ρ c (Proc.devRef .tc main_arg9)) shapeCasts_S10_S1x10 := by
    show after hostOps1_2 (after hostOps1_1 (after hostOps1 (W1 m ρ c))) (Proc.devRef .tc main_v47) = _
    after_results_simp
    rfl
  show W4 m ρ c (Proc.devRef .tc main_v47) (ix2 (0 : Fin 1) k) = _
  rw [h, shapeCast_a_1a_apply, W1_of_ne m ρ c main_arg9 (by decide)]

/-- The first hidden layer's weights are as launched. -/
theorem entry_w1 (c : Dev nD) : V4 m ρ c main_arg4 = m ((c : Thread nD τ).loc main_arg4) := by
  show after hostOps1_2 (after hostOps1_1 (after hostOps1 (W1 m ρ c))) (Proc.devRef .tc main_arg4) = _
  after_results_simp
  exact W1_of_ne m ρ c main_arg4 (by decide)

/-- The second hidden layer's weights are as launched. -/
theorem entry_w2 (c : Dev nD) : V4 m ρ c main_arg6 = m ((c : Thread nD τ).loc main_arg6) := by
  show after hostOps1_2 (after hostOps1_1 (after hostOps1 (W1 m ρ c))) (Proc.devRef .tc main_arg6) = _
  after_results_simp
  exact W1_of_ne m ρ c main_arg6 (by decide)

/-- The output layer's weights are as launched. -/
theorem entry_w3 (c : Dev nD) : V4 m ρ c main_arg8 = m ((c : Thread nD τ).loc main_arg8) := by
  show after hostOps1_2 (after hostOps1_1 (after hostOps1 (W1 m ρ c))) (Proc.devRef .tc main_arg8) = _
  after_results_simp
  exact W1_of_ne m ρ c main_arg8 (by decide)

end Cert.KernelIdeal.HostMid

end
-- ==== Proof.KernelValue.lean ====
/-
  The kernel program's result array as one function of its arguments: region 0 leaves the product `x · W_gcn`, the host
  aggregates it over the edge list, and region 1 applies the network row by row with the biases and weights as launched.
-/
import proofs.«133721_j14147622273474_1_alg».proof.Proof.XwRegion
import proofs.«133721_j14147622273474_1_alg».proof.Proof.MlpRegion
import proofs.«133721_j14147622273474_1_alg».proof.Proof.HostMid

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Net Cert.Aggregate

variable (m : (ℓ : Loc nD τ sig) → Buf (Elt Ideal) ℓ) (ρ : Dev nD → PrngReg)

/-- What region 1's write-backs leave in the result array, in terms of the launch contents alone. -/
theorem result_eq (c : Dev nD) :
    (dat1 (F := Ideal) (V4 m ρ) c).arrAt 8 cfg1.N
      = net (agg (m ((c : Thread nD τ).loc main_arg1)) (xw (m ((c : Thread nD τ).loc main_arg0)) (m ((c : Thread nD τ).loc main_arg2))))
          (fun k => (m ((c : Thread nD τ).loc main_arg3)) (ix1 k)) (m ((c : Thread nD τ).loc main_arg4)) (fun k => (m ((c : Thread nD τ).loc main_arg5)) (ix1 k)) (m ((c : Thread nD τ).loc main_arg6))
          (fun k => (m ((c : Thread nD τ).loc main_arg7)) (ix1 k)) (m ((c : Thread nD τ).loc main_arg8)) (fun k => (m ((c : Thread nD τ).loc main_arg9)) (ix1 k)) := by
  rw [MlpRegion.region1_array (V4 m ρ) c, HostMid.entry_agg m ρ c, XwRegion.region0_array (V0 m ρ) c,
    HostMid.entry_w1 m ρ c, HostMid.entry_w2 m ρ c, HostMid.entry_w3 m ρ c,
    show (fun k => V4 m ρ c main_v44 (ix2 (0 : Fin 1) k)) = fun k => (m ((c : Thread nD τ).loc main_arg3)) (ix1 k) from funext (HostMid.entry_bias_gcn m ρ c),
    show (fun k => V4 m ρ c main_v45 (ix2 (0 : Fin 1) k)) = fun k => (m ((c : Thread nD τ).loc main_arg5)) (ix1 k) from funext (HostMid.entry_bias1 m ρ c),
    show (fun k => V4 m ρ c main_v46 (ix2 (0 : Fin 1) k)) = fun k => (m ((c : Thread nD τ).loc main_arg7)) (ix1 k) from funext (HostMid.entry_bias2 m ρ c),
    show (fun k => V4 m ρ c main_v47 (ix2 (0 : Fin 1) k)) = fun k => (m ((c : Thread nD τ).loc main_arg9)) (ix1 k) from funext (HostMid.entry_bias3 m ρ c)]

end Cert.KernelIdeal.KernelValue

end
-- ==== Proof.RefValue.lean ====
/-
  The reference's result array is the network of the aggregated product: at row `i` and column `j` it is `rowNet` of row
  `i` of `agg e (x · W_gcn)`.  Each dense layer of the reference is a `dot_general` over the whole array followed by a
  broadcast bias and a `max` with a broadcast zero; read at an index, the `dot_general` is the sum over the contracted
  coordinate of the row's entries times the weight column's, the bias is its entry at the column, and the zero is the
  one float word.  The layers are read one at a time, innermost first, each rewriting the one before it under its sum.
-/
import proofs.«133721_j14147622273474_1_alg».proof.Proof.RefRead
import proofs.«133721_j14147622273474_1_alg».proof.Proof.Aggregate
import proofs.«133721_j14147622273474_1_alg».proof.Proof.Spec

noncomputable section

open scoped BigOperators

namespace Cert.ReferenceIdeal.RefValue

open Cert.ReferenceIdeal Cert.ReferenceIdeal.ReadP Idealize.ShloMosaic Idealize.ShloMosaic.ValueIdx Cert.Net Cert.Aggregate

variable (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (x8 : (⟨S16x10, .f32⟩ : BufTy).Contents (Elt Ideal)) (x9 : (⟨S10, .f32⟩ : BufTy).Contents (Elt Ideal))

/-! ## The printed operand indices of the four `dot_general`s and of the bias broadcasts, by coordinates -/

theorem lidx30 (r : Fin 100000) (c : Fin 64) (k : Fin 256) : lidx_main_v30 (ix2 r c) k = ix2 r k :=
  funext fun a => Fin.ext (by match a with | ⟨0, _⟩ => rfl | ⟨1, _⟩ => rfl)
theorem ridx30 (r : Fin 100000) (c : Fin 64) (k : Fin 256) : ridx_main_v30 (ix2 r c) k = ix2 k c :=
  funext fun a => Fin.ext (by match a with | ⟨0, _⟩ => rfl | ⟨1, _⟩ => rfl)
theorem lidx48 (r : Fin 100000) (c : Fin 32) (k : Fin 64) : lidx_main_v48 (ix2 r c) k = ix2 r k :=
  funext fun a => Fin.ext (by match a with | ⟨0, _⟩ => rfl | ⟨1, _⟩ => rfl)
theorem ridx48 (r : Fin 100000) (c : Fin 32) (k : Fin 64) : ridx_main_v48 (ix2 r c) k = ix2 k c :=
  funext fun a => Fin.ext (by match a with | ⟨0, _⟩ => rfl | ⟨1, _⟩ => rfl)
theorem lidx53 (r : Fin 100000) (c : Fin 16) (k : Fin 32) : lidx_main_v53 (ix2 r c) k = ix2 r k :=
  funext fun a => Fin.ext (by match a with | ⟨0, _⟩ => rfl | ⟨1, _⟩ => rfl)
theorem ridx53 (r : Fin 100000) (c : Fin 16) (k : Fin 32) : ridx_main_v53 (ix2 r c) k = ix2 k c :=
  funext fun a => Fin.ext (by match a with | ⟨0, _⟩ => rfl | ⟨1, _⟩ => rfl)
theorem lidx58 (r : Fin 100000) (c : Fin 10) (k : Fin 16) : lidx_main_v58 (ix2 r c) k = ix2 r k :=
  funext fun a => Fin.ext (by match a with | ⟨0, _⟩ => rfl | ⟨1, _⟩ => rfl)
theorem ridx58 (r : Fin 100000) (c : Fin 10) (k : Fin 16) : ridx_main_v58 (ix2 r c) k = ix2 k c :=
  funext fun a => Fin.ext (by match a with | ⟨0, _⟩ => rfl | ⟨1, _⟩ => rfl)
theorem bias45 (r : Fin 100000) (c : Fin 64) : idx_main_v44 (idx_main_v45 (ix2 r c)) = ix1 c :=
  funext fun a => Fin.ext (by match a with | ⟨0, _⟩ => rfl)
theorem bias50 (r : Fin 100000) (c : Fin 32) : idx_main_v49 (idx_main_v50 (ix2 r c)) = ix1 c :=
  funext fun a => Fin.ext (by match a with | ⟨0, _⟩ => rfl)
theorem bias55 (r : Fin 100000) (c : Fin 16) : idx_main_v54 (idx_main_v55 (ix2 r c)) = ix1 c :=
  funext fun a => Fin.ext (by match a with | ⟨0, _⟩ => rfl)
theorem bias60 (r : Fin 100000) (c : Fin 10) : idx_main_v59 (idx_main_v60 (ix2 r c)) = ix1 c :=
  funext fun a => Fin.ext (by match a with | ⟨0, _⟩ => rfl)

/-! ## The product `x · W_gcn` -/

/-- The reference's `dot_general` of the features with the convolution's weights is the row-by-column product. -/
theorem product_eq : val_main_v30 (F := Ideal) x0 x2 = xw x0 x2 := by
  funext i
  obtain ⟨r, c, rfl⟩ : ∃ (r : Fin 100000) (c : Fin 64), i = ix2 r c := ⟨i 0, i 1, eq_ix2 i⟩
  rw [val_main_v30_apply]
  exact Finset.sum_congr rfl fun k _ => by rw [lidx30, ridx30]

/-! ## The layers, innermost first, at row `r` and column `c` -/

/-- The convolution's output: the aggregated entry plus the bias at its column, under `relu`. -/
theorem conv_at (r : Fin 100000) (c : Fin 64) :
    val_main_v47 (F := Ideal) x0 x1 x2 x3 (ix2 r c) = relu (val_main_v43 (F := Ideal) x0 x1 x2 (ix2 r c) + x3 (ix1 c)) := by
  rw [val_main_v47_apply, val_main_v46_apply, val_main_v45_apply, val_main_v44_apply, val_main_call1_v0_apply,
    val_main_call1_cst_apply, bias45]
  rfl

/-- The first hidden layer. -/
theorem hidden1_at (r : Fin 100000) (c : Fin 32) :
    val_main_v52 (F := Ideal) x0 x1 x2 x3 x4 x5 (ix2 r c) = relu (dense (fun k0 => relu (val_main_v43 (F := Ideal) x0 x1 x2 (ix2 r k0) + x3 (ix1 k0))) (mat x4) (fun n => x5 (ix1 n)) c) := by
  rw [val_main_v52_apply, val_main_v51_apply, val_main_v48_apply, val_main_v50_apply, val_main_v49_apply,
    val_main_call2_v0_apply, val_main_call2_cst_apply, bias50]
  have hs : ∑ k : Fin 64, val_main_v47 (F := Ideal) x0 x1 x2 x3 (lidx_main_v48 (ix2 r c) k) * x4 (ridx_main_v48 (ix2 r c) k)
      = ∑ k : Fin 64, relu (val_main_v43 (F := Ideal) x0 x1 x2 (ix2 r k) + x3 (ix1 k)) * x4 (ix2 k c) :=
    Finset.sum_congr rfl fun k _ => by rw [lidx48, ridx48, conv_at]
  rw [hs]
  rfl

/-- The second hidden layer. -/
theorem hidden2_at (r : Fin 100000) (c : Fin 16) :
    val_main_v57 (F := Ideal) x0 x1 x2 x3 x4 x5 x6 x7 (ix2 r c) = relu (dense (fun k1 => relu (dense (fun k0 => relu (val_main_v43 (F := Ideal) x0 x1 x2 (ix2 r k0) + x3 (ix1 k0))) (mat x4) (fun n => x5 (ix1 n)) k1)) (mat x6) (fun n => x7 (ix1 n)) c) := by
  rw [val_main_v57_apply, val_main_v56_apply, val_main_v53_apply, val_main_v55_apply, val_main_v54_apply,
    val_main_call3_v0_apply, val_main_call3_cst_apply, bias55]
  have hs : ∑ k : Fin 32, val_main_v52 (F := Ideal) x0 x1 x2 x3 x4 x5 (lidx_main_v53 (ix2 r c) k) * x6 (ridx_main_v53 (ix2 r c) k)
      = ∑ k : Fin 32, relu (dense (fun k0 => relu (val_main_v43 (F := Ideal) x0 x1 x2 (ix2 r k0) + x3 (ix1 k0))) (mat x4) (fun n => x5 (ix1 n)) k) * x6 (ix2 k c) :=
    Finset.sum_congr rfl fun k _ => by rw [lidx53, ridx53, hidden1_at]
  rw [hs]
  rfl

/-- The output layer: the whole row function. -/
theorem out_at (r : Fin 100000) (c : Fin 10) :
    val_main_v61 (F := Ideal) x0 x1 x2 x3 x4 x5 x6 x7 x8 x9 (ix2 r c)
      = rowNet (fun k => val_main_v43 (F := Ideal) x0 x1 x2 (ix2 r k)) (fun k => x3 (ix1 k)) (mat x4) (fun n => x5 (ix1 n))
          (mat x6) (fun n => x7 (ix1 n)) (mat x8) (fun n => x9 (ix1 n)) c := by
  rw [val_main_v61_apply, val_main_v58_apply, val_main_v60_apply, val_main_v59_apply, bias60]
  have hs : ∑ k : Fin 16, val_main_v57 (F := Ideal) x0 x1 x2 x3 x4 x5 x6 x7 (lidx_main_v58 (ix2 r c) k) * x8 (ridx_main_v58 (ix2 r c) k)
      = ∑ k : Fin 16, relu (dense (fun k1 => relu (dense (fun k0 => relu (val_main_v43 (F := Ideal) x0 x1 x2 (ix2 r k0) + x3 (ix1 k0))) (mat x4) (fun n => x5 (ix1 n)) k1)) (mat x6) (fun n => x7 (ix1 n)) k) * x8 (ix2 k c) :=
    Finset.sum_congr rfl fun k _ => by rw [lidx58, ridx58, hidden2_at]
  rw [hs]
  rfl

/-! ## The result -/

/-- The reference's result: the network on every row of the aggregated product. -/
theorem result_eq :
    val_main_v61 (F := Ideal) x0 x1 x2 x3 x4 x5 x6 x7 x8 x9
      = net (agg x1 (xw x0 x2)) (fun k => x3 (ix1 k)) x4 (fun n => x5 (ix1 n)) x6 (fun n => x7 (ix1 n)) x8 (fun n => x9 (ix1 n)) := by
  funext i
  obtain ⟨r, c, rfl⟩ : ∃ (r : Fin 100000) (c : Fin 10), i = ix2 r c := ⟨i 0, i 1, eq_ix2 i⟩
  rw [out_at, ref_agg, product_eq]
  rfl

end Cert.ReferenceIdeal.RefValue

end
-- ==== Proof.lean ====
/-
  A graph-convolution layer followed by a three-layer perceptron, as two tiled kernels around a host-side aggregation,
  against the same network written with whole-array operations.

  Both programs compute `net (agg e (x · W_gcn))`: the product of the node features with the convolution's weights, the
  degree-normalised sum of each node's neighbours' rows (`agg`, the same host operations on both sides, never opened),
  then per row: add the bias, `relu`, and three dense layers with `relu` after the first two.  The kernel program tiles
  the rows in blocks of 5000 for the product and for the perceptron; a row of either result depends on that row of the
  input alone, so each block of the result is the whole-array function read through the block, and the blocks cover the
  array.  The kernel's matrix products accumulate into zero and so are the same sums as the reference's `dot_general`s;
  the change of float format before each product is the identity on the extended reals.  No law beyond the definition of
  the sums is used, so the precondition is never opened.  The frames of both kernel programs are generated; the
  reference's frame is its run with the result dropped; the idealization's ledger is empty.
-/
import proofs.«133721_j14147622273474_1_alg».proof.Defs
import proofs.«133721_j14147622273474_1_alg».proof.Proof.Gen.Kernel
import proofs.«133721_j14147622273474_1_alg».proof.Proof.Gen.Kernel.Frame
import proofs.«133721_j14147622273474_1_alg».proof.Proof.Gen.KernelIdeal
import proofs.«133721_j14147622273474_1_alg».proof.Proof.Gen.KernelIdeal.Frame
import proofs.«133721_j14147622273474_1_alg».proof.Proof.Gen.ReferenceIdeal
import proofs.«133721_j14147622273474_1_alg».proof.Proof.Gen.Pre_finite_inputs
import proofs.«133721_j14147622273474_1_alg».proof.Proof.KernelRun
import proofs.«133721_j14147622273474_1_alg».proof.Proof.KernelValue
import proofs.«133721_j14147622273474_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with equal results: each result array is `net (agg e (x · W_gcn))` of its own
    arguments, and the arguments agree. -/
theorem algebraic : Cert.algebraic_KernelIdeal_ReferenceIdeal := by
  intro m ρ m' ρ' _ hagree
  refine ⟨fun c => Cert.Net.net (Cert.Aggregate.agg (m ((c.tc : Thread Cert.KernelIdeal.nD Cert.KernelIdeal.τ).loc Cert.KernelIdeal.main_arg1)) (Cert.Net.xw (m ((c.tc : Thread Cert.KernelIdeal.nD Cert.KernelIdeal.τ).loc Cert.KernelIdeal.main_arg0)) (m ((c.tc : Thread Cert.KernelIdeal.nD Cert.KernelIdeal.τ).loc Cert.KernelIdeal.main_arg2))))
      (fun k => (m ((c.tc : Thread Cert.KernelIdeal.nD Cert.KernelIdeal.τ).loc Cert.KernelIdeal.main_arg3)) (ix1 k)) (m ((c.tc : Thread Cert.KernelIdeal.nD Cert.KernelIdeal.τ).loc Cert.KernelIdeal.main_arg4)) (fun k => (m ((c.tc : Thread Cert.KernelIdeal.nD Cert.KernelIdeal.τ).loc Cert.KernelIdeal.main_arg5)) (ix1 k)) (m ((c.tc : Thread Cert.KernelIdeal.nD Cert.KernelIdeal.τ).loc Cert.KernelIdeal.main_arg6))
      (fun k => (m ((c.tc : Thread Cert.KernelIdeal.nD Cert.KernelIdeal.τ).loc Cert.KernelIdeal.main_arg7)) (ix1 k)) (m ((c.tc : Thread Cert.KernelIdeal.nD Cert.KernelIdeal.τ).loc Cert.KernelIdeal.main_arg8)) (fun k => (m ((c.tc : Thread Cert.KernelIdeal.nD Cert.KernelIdeal.τ).loc Cert.KernelIdeal.main_arg9)) (ix1 k)), ?_, ?_⟩
  · exact (θ_run Cert.KernelIdeal.defs _ _).mono
      (fun r h c => ⟨(h c).1.trans (Cert.KernelIdeal.KernelValue.result_eq m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v61_eq, Cert.ReferenceIdeal.RefValue.result_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
